-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32 .f32) (main_arg6 : FVec F S32x32 .f32) (main_arg7 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x4 .f32) (main_arg1 : IVec S2x3200000 32) (main_arg2 : FVec F S4x64 .f32) (main_arg3 : FVec F S64 .f32) (main_arg4 : FVec F S64x32 .f32) (main_arg5 : FVec F S32 .f32) (main_arg6 : FVec F S32x32 .f32) (main_arg7 : FVec F S32 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x4 : Shape := ⟨2, ![100000, 4]⟩
abbrev S2x3200000 : Shape := ⟨2, ![2, 3200000]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x4 : Shape := ⟨2, ![10000, 4]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩

abbrev nBuf : Space → Nat
  | .hbm => 128
  | .vmem => 26
  | .smem => 0
  | _ => 0

abbrev bufTy : (tb : Table) → Fin (tcTables nBuf tb) → BufTy
  | .hbm, ⟨0, _⟩ => ⟨S100000x4, .f32⟩
  | .hbm, ⟨1, _⟩ => ⟨S2x3200000, .i32⟩
  | .hbm, ⟨2, _⟩ => ⟨S4x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000, .i32⟩
  | .hbm, ⟨68, _⟩ => ⟨S1x3200000, .i32⟩
  | .hbm, ⟨69, _⟩ => ⟨S3200000, .i32⟩
  | .hbm, ⟨70, _⟩ => ⟨S3300000, .i32⟩
  | .hbm, ⟨71, _⟩ => ⟨S1x3200000, .i32⟩
  | .hbm, ⟨72, _⟩ => ⟨S3200000, .i32⟩
  | .hbm, ⟨73, _⟩ => ⟨S3300000, .i32⟩
  | .hbm, ⟨74, _⟩ => ⟨S_, .f32⟩
  | .hbm, ⟨75, _⟩ => ⟨S3300000, .f32⟩
  | .hbm, ⟨76, _⟩ => ⟨S_, .f32⟩
  | .hbm, ⟨77, _⟩ => ⟨S100000, .f32⟩
  | .hbm, ⟨78, _⟩ => ⟨S3300000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S3300000, .i32⟩
  | .hbm, ⟨90, _⟩ => ⟨S3300000, .i1⟩
  | .hbm, ⟨91, _⟩ => ⟨S_, .i32⟩
  | .hbm, ⟨92, _⟩ => ⟨S3300000, .i32⟩
  | .hbm, ⟨93, _⟩ => ⟨S3300000, .i32⟩
  | .hbm, ⟨94, _⟩ => ⟨S3300000, .i32⟩
  | .hbm, ⟨95, _⟩ => ⟨S3300000x1, .i32⟩
  | .hbm, ⟨96, _⟩ => ⟨S3300000, .f32⟩
  | .hbm, ⟨97, _⟩ => ⟨S_, .i32⟩
  | .hbm, ⟨98, _⟩ => ⟨S3300000, .i32⟩
  | .hbm, ⟨99, _⟩ => ⟨S3300000, .i1⟩
  | .hbm, ⟨100, _⟩ => ⟨S_, .i32⟩
  | .hbm, ⟨101, _⟩ => ⟨S3300000, .i32⟩
  | .hbm, ⟨102, _⟩ => ⟨S3300000, .i32⟩
  | .hbm, ⟨103, _⟩ => ⟨S3300000, .i32⟩
  | .hbm, ⟨104, _⟩ => ⟨S3300000x1, .i32⟩
  | .hbm, ⟨105, _⟩ => ⟨S3300000, .f32⟩
  | .hbm, ⟨106, _⟩ => ⟨S3300000, .f32⟩
  | .hbm, ⟨107, _⟩ => ⟨S100000x32, .f32⟩
  | .hbm, ⟨108, _⟩ => ⟨S_, .i32⟩
  | .hbm, ⟨109, _⟩ => ⟨S3300000, .i32⟩
  | .hbm, ⟨110, _⟩ => ⟨S3300000, .i1⟩
  | .hbm, ⟨111, _⟩ => ⟨S_, .i32⟩
  | .hbm, ⟨112, _⟩ => ⟨S3300000, .i32⟩
  | .hbm, ⟨113, _⟩ => ⟨S3300000, .i32⟩
  | .hbm, ⟨114, _⟩ => ⟨S3300000, .i32⟩
  | .hbm, ⟨115, _⟩ => ⟨S3300000x1, .i32⟩
  | .hbm, ⟨116, _⟩ => ⟨S3300000x32, .f32⟩
  | .hbm, ⟨117, _⟩ => ⟨S3300000x1, .f32⟩
  | .hbm, ⟨118, _⟩ => ⟨S3300000x32, .f32⟩
  | .hbm, ⟨119, _⟩ => ⟨S3300000x32, .f32⟩
  | .hbm, ⟨120, _⟩ => ⟨S_, .f32⟩
  | .hbm, ⟨121, _⟩ => ⟨S100000x32, .f32⟩
  | .hbm, ⟨122, _⟩ => ⟨S3300000x1, .i32⟩
  | .hbm, ⟨123, _⟩ => ⟨S100000x32, .f32⟩
  | .hbm, ⟨124, _⟩ => ⟨S1x32, .f32⟩
  | .hbm, ⟨125, _⟩ => ⟨S100000x32, .f32⟩
  | .hbm, ⟨126, _⟩ => ⟨S1x32, .f32⟩
  | .hbm, ⟨127, _⟩ => ⟨S100000x32, .f32⟩
  | .local _ .vmem, ⟨0, _⟩ => ⟨S10000x4, .f32⟩
  | .local _ .vmem, ⟨1, _⟩ => ⟨S10000x4, .f32⟩
  | .local _ .vmem, ⟨2, _⟩ => ⟨S4x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S1x32, .f32⟩
  | .local _ .vmem, ⟨24, _⟩ => ⟨S10000x32, .f32⟩
  | .local _ .vmem, ⟨25, _⟩ => ⟨S10000x32, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x4_S4x64_S10000x64_1_0_0_1_n_n_wf : DotDims.WF S10000x4 S4x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v91) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S4x64 : Shape := ⟨2, ![4, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 143
  | .vmem => 0
  | .smem => 0
  | _ => 0

abbrev hbmTy0_0 (i : Nat) : BufTy := match i % 128 with
  | 0 => ⟨S100000x4, .f32⟩
  | 1 => ⟨S2x3200000, .i32⟩
  | 2 => ⟨S4x64, .f32⟩
  | 3 => ⟨S64, .f32⟩
  | 4 => ⟨S64x32, .f32⟩
  | 5 => ⟨S32, .f32⟩
  | 6 => ⟨S32x32, .f32⟩
  | 7 => ⟨S32, .f32⟩
  | 8 => ⟨S1x3200000, .i32⟩
  | 9 => ⟨S3200000, .i32⟩
  | 10 => ⟨S100000, .i32⟩
  | 11 => ⟨S3300000, .i32⟩
  | 12 => ⟨S1x3200000, .i32⟩
  | 13 => ⟨S3200000, .i32⟩
  | 14 => ⟨S100000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x3200000, .i32⟩
  | 73 => ⟨S3200000, .i32⟩
  | 74 => ⟨S100000, .i32⟩
  | 75 => ⟨S3300000, .i32⟩
  | 76 => ⟨S1x3200000, .i32⟩
  | 77 => ⟨S3200000, .i32⟩
  | 78 => ⟨S100000, .i32⟩
  | 79 => ⟨S3300000, .i32⟩
  | 80 => ⟨S_, .f32⟩
  | 81 => ⟨S3300000, .f32⟩
  | 82 => ⟨S_, .f32⟩
  | 83 => ⟨S100000, .f32⟩
  | 84 => ⟨S3300000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000, .f32⟩
  | 112 => ⟨S3300000, .f32⟩
  | 113 => ⟨S100000x32, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x32, .f32⟩
  | 123 => ⟨S3300000x1, .f32⟩
  | 124 => ⟨S3300000x32, .f32⟩
  | 125 => ⟨S3300000x32, .f32⟩
  | 126 => ⟨S_, .f32⟩
  | 127 => ⟨S100000x32, .f32⟩
  | _ => ⟨S100000x4, .f32⟩

abbrev hbmTy0_1 (i : Nat) : BufTy := match i % 128 with
  | 0 => ⟨S3300000x1, .i32⟩
  | 1 => ⟨S100000x32, .f32⟩
  | 2 => ⟨S1x32, .f32⟩
  | 3 => ⟨S100000x32, .f32⟩
  | 4 => ⟨S100000x32, .f32⟩
  | 5 => ⟨S_, .f32⟩
  | 6 => ⟨S100000x32, .f32⟩
  | 7 => ⟨S100000x32, .f32⟩
  | 8 => ⟨S100000x32, .f32⟩
  | 9 => ⟨S1x32, .f32⟩
  | 10 => ⟨S100000x32, .f32⟩
  | 11 => ⟨S100000x32, .f32⟩
  | 12 => ⟨S_, .f32⟩
  | 13 => ⟨S100000x32, .f32⟩
  | 14 => ⟨S100000x32, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call3_cst : Ref sig .tc := ⟨.hbm, 133, rfl⟩
abbrev main_call3_v0 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call4_cst : Ref sig .tc := ⟨.hbm, 140, rfl⟩
abbrev main_call4_v0 : Ref sig .tc := ⟨.hbm, 141, rfl⟩
abbrev main_v102 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x4_S4x64_S100000x64_1_0_0_1_n_n_wf : DotDims.WF S100000x4 S4x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.HostStretches.lean ====
/-
  The host stretches of the kernel's @main, read back: what the buffers between the pipelined regions hold, as
  the reference's own stages of the argument arrays. Every stretch of the kernel's host program is, operation by
  operation, a stretch of the reference's: the edge list with the self loops appended (sources, destinations), the
  degree by a scatter-add of ones, its inverse square root where positive, the per-edge normalisation as the product
  of two gathers, and per layer the gather of the transformed features, their scaling and the scatter-add back.
-/
import proofs.«112965_j69638599737458_1_alg».proof.Proof.Gen.KernelIdeal.Frame
import proofs.«112965_j69638599737458_1_alg».proof.Proof.RefRead

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Read a buffer back through the fold of @main: across a host stretch every operation either writes the buffer
    (its result is its function of its operands' contents) or leaves it; across a region every buffer that is not
    one of its arrays is as the region found it. -/
macro "fold_back" : tactic => `(tactic| repeat (first
  | (dsimp only [W1, W2, W3, W5, W7, W8, W9, W11, W13]; after_results)
  | (rw [W14_of_ne]; rotate_left; decide)
  | (rw [W12_of_ne]; rotate_left; decide)
  | (rw [W10_of_ne]; rotate_left; decide)
  | (rw [W6_of_ne]; rotate_left; decide)
  | (rw [W4_of_ne]; rotate_left; decide)))

/-! ## One stretch at a time, from ANY entry contents

Each host stretch of the kernel's @main is a stretch of the reference's, operation by operation, so from any entry
contents `V` that hold the reference's stages in the buffers the stretch reads, the buffers it writes hold the
reference's next stages. -/

section Steps

variable (V : Valuation τ sig (Elt F))
variable (x0 : (⟨S100000x4, .f32⟩ : BufTy).Contents (Elt F)) (x1 : (⟨S2x3200000, .i32⟩ : BufTy).Contents (Elt F))
  (x2 : (⟨S4x64, .f32⟩ : BufTy).Contents (Elt F)) (x3 : (⟨S64, .f32⟩ : BufTy).Contents (Elt F))
  (x4 : (⟨S64x32, .f32⟩ : BufTy).Contents (Elt F))

/-- The sources of the edges with the self loops appended. -/
theorem s0_src : StableHlo.after hostOps0 V (Proc.devRef .tc main_v3) = Cert.ReferenceIdeal.ReadP.val_main_v3 (F := F) (V (Proc.devRef .tc main_arg1)) := by
  after_results; rfl
/-- The destinations of the edges with the self loops appended. -/
theorem s0_dst : StableHlo.after hostOps0 V (Proc.devRef .tc main_v6) = Cert.ReferenceIdeal.ReadP.val_main_v7 (F := F) (V (Proc.devRef .tc main_arg1)) := by
  after_results; rfl
/-- Where the degree (the scatter-add of ones at the destinations) is positive. -/
theorem s0_degpos : StableHlo.after hostOps0 V (Proc.devRef .tc main_v12) = Cert.ReferenceIdeal.ReadP.val_main_v13 (F := F) (V (Proc.devRef .tc main_arg1)) := by
  after_results_simp; rfl
/-- The degree's inverse square root. -/
theorem s0_degrsqrt : StableHlo.after hostOps0 V (Proc.devRef .tc main_v13) = Cert.ReferenceIdeal.ReadP.val_main_v14 (F := F) (V (Proc.devRef .tc main_arg1)) := by
  after_results_simp; rfl
/-- The zero that stands where the degree is not positive. -/
theorem s0_zero : StableHlo.after hostOps0 V (Proc.devRef .tc main_cst_2) = Cert.ReferenceIdeal.ReadP.val_main_cst_2 (F := F) := by
  after_results_simp; rfl

/-- 1/sqrt(deg) where the degree is positive, zero elsewhere. -/
theorem s0_dis (hp : V (Proc.devRef .tc main_v12) = Cert.ReferenceIdeal.ReadP.val_main_v13 (F := F) x1) (hr : V (Proc.devRef .tc main_v13) = Cert.ReferenceIdeal.ReadP.val_main_v14 (F := F) x1)
    (hz : V (Proc.devRef .tc main_cst_2) = Cert.ReferenceIdeal.ReadP.val_main_cst_2 (F := F)) :
    StableHlo.after hostOps0_1 V (Proc.devRef .tc main_v14) = Cert.ReferenceIdeal.ReadP.val_main_v15 (F := F) x1 := by
  after_results_simp
  rw [hp, hr, hz]
  rfl

/-- The per-edge normalisation 1/sqrt(deg src) · 1/sqrt(deg dst): two gathers of the inverse square roots, at the
    sources and at the destinations (a negative index wrapped by the array's length first), multiplied. -/
theorem s0_norm (hd : V (Proc.devRef .tc main_v14) = Cert.ReferenceIdeal.ReadP.val_main_v15 (F := F) x1) (hs : V (Proc.devRef .tc main_v3) = Cert.ReferenceIdeal.ReadP.val_main_v3 (F := F) x1)
    (ht : V (Proc.devRef .tc main_v6) = Cert.ReferenceIdeal.ReadP.val_main_v7 (F := F) x1) :
    StableHlo.after hostOps0_2 V (Proc.devRef .tc main_v29) = Cert.ReferenceIdeal.ReadP.val_main_v30 (F := F) x1 := by
  after_results_simp
  rw [hd, hs, ht]
  rfl

/-- The first layer's aggregation: the transformed features gathered at the sources, scaled by the normalisation,
    scatter-added at the destinations. -/
theorem s1_agg (hf : V (Proc.devRef .tc main_v30) = Cert.ReferenceIdeal.ReadP.val_main_v31 (F := F) x0 x2) (hs : V (Proc.devRef .tc main_v3) = Cert.ReferenceIdeal.ReadP.val_main_v3 (F := F) x1)
    (ht : V (Proc.devRef .tc main_v6) = Cert.ReferenceIdeal.ReadP.val_main_v7 (F := F) x1) (hn : V (Proc.devRef .tc main_v29) = Cert.ReferenceIdeal.ReadP.val_main_v30 (F := F) x1) :
    StableHlo.after hostOps1 V (Proc.devRef .tc main_v43) = Cert.ReferenceIdeal.ReadP.val_main_v44 (F := F) x0 x1 x2 := by
  after_results_simp
  rw [hf, hs, ht, hn]
  rfl

/-- The sources of the edges with the self loops appended. -/
theorem s2_src : StableHlo.after hostOps2 V (Proc.devRef .tc main_v49) = Cert.ReferenceIdeal.ReadP.val_main_v52 (F := F) (V (Proc.devRef .tc main_arg1)) := by
  after_results; rfl
/-- The destinations of the edges with the self loops appended. -/
theorem s2_dst : StableHlo.after hostOps2 V (Proc.devRef .tc main_v52) = Cert.ReferenceIdeal.ReadP.val_main_v56 (F := F) (V (Proc.devRef .tc main_arg1)) := by
  after_results; rfl
/-- Where the degree (the scatter-add of ones at the destinations) is positive. -/
theorem s2_degpos : StableHlo.after hostOps2 V (Proc.devRef .tc main_v58) = Cert.ReferenceIdeal.ReadP.val_main_v62 (F := F) (V (Proc.devRef .tc main_arg1)) := by
  after_results_simp; rfl
/-- The degree's inverse square root. -/
theorem s2_degrsqrt : StableHlo.after hostOps2 V (Proc.devRef .tc main_v59) = Cert.ReferenceIdeal.ReadP.val_main_v63 (F := F) (V (Proc.devRef .tc main_arg1)) := by
  after_results_simp; rfl
/-- The zero that stands where the degree is not positive. -/
theorem s2_zero : StableHlo.after hostOps2 V (Proc.devRef .tc main_cst_12) = Cert.ReferenceIdeal.ReadP.val_main_cst_12 (F := F) := by
  after_results_simp; rfl

/-- 1/sqrt(deg) where the degree is positive, zero elsewhere. -/
theorem s2_dis (hp : V (Proc.devRef .tc main_v58) = Cert.ReferenceIdeal.ReadP.val_main_v62 (F := F) x1) (hr : V (Proc.devRef .tc main_v59) = Cert.ReferenceIdeal.ReadP.val_main_v63 (F := F) x1)
    (hz : V (Proc.devRef .tc main_cst_12) = Cert.ReferenceIdeal.ReadP.val_main_cst_12 (F := F)) :
    StableHlo.after hostOps2_1 V (Proc.devRef .tc main_v60) = Cert.ReferenceIdeal.ReadP.val_main_v64 (F := F) x1 := by
  after_results_simp
  rw [hp, hr, hz]
  rfl

/-- The per-edge normalisation 1/sqrt(deg src) · 1/sqrt(deg dst): two gathers of the inverse square roots, at the
    sources and at the destinations (a negative index wrapped by the array's length first), multiplied. -/
theorem s2_norm (hd : V (Proc.devRef .tc main_v60) = Cert.ReferenceIdeal.ReadP.val_main_v64 (F := F) x1) (hs : V (Proc.devRef .tc main_v49) = Cert.ReferenceIdeal.ReadP.val_main_v52 (F := F) x1)
    (ht : V (Proc.devRef .tc main_v52) = Cert.ReferenceIdeal.ReadP.val_main_v56 (F := F) x1) :
    StableHlo.after hostOps2_2 V (Proc.devRef .tc main_v75) = Cert.ReferenceIdeal.ReadP.val_main_v79 (F := F) x1 := by
  after_results_simp
  rw [hd, hs, ht]
  rfl

/-- The second layer's aggregation: the transformed features gathered at the sources, scaled by the normalisation,
    scatter-added at the destinations. -/
theorem s3_agg (hf : V (Proc.devRef .tc main_v76) = Cert.ReferenceIdeal.ReadP.val_main_v80 (F := F) x0 x1 x2 x3 x4) (hs : V (Proc.devRef .tc main_v49) = Cert.ReferenceIdeal.ReadP.val_main_v52 (F := F) x1)
    (ht : V (Proc.devRef .tc main_v52) = Cert.ReferenceIdeal.ReadP.val_main_v56 (F := F) x1) (hn : V (Proc.devRef .tc main_v75) = Cert.ReferenceIdeal.ReadP.val_main_v79 (F := F) x1) :
    StableHlo.after hostOps3 V (Proc.devRef .tc main_v89) = Cert.ReferenceIdeal.ReadP.val_main_v93 (F := F) x0 x1 x2 x3 x4 := by
  after_results_simp
  rw [hf, hs, ht, hn]
  rfl

/-! ### What a stretch leaves alone, and the bias rows -/

theorem s0a_keep_v3 : StableHlo.after hostOps0_1 V (Proc.devRef .tc main_v3) = V (Proc.devRef .tc main_v3) := by after_results
theorem s0a_keep_v6 : StableHlo.after hostOps0_1 V (Proc.devRef .tc main_v6) = V (Proc.devRef .tc main_v6) := by after_results
theorem s0b_keep_v3 : StableHlo.after hostOps0_2 V (Proc.devRef .tc main_v3) = V (Proc.devRef .tc main_v3) := by after_results
theorem s0b_keep_v6 : StableHlo.after hostOps0_2 V (Proc.devRef .tc main_v6) = V (Proc.devRef .tc main_v6) := by after_results
theorem s2_keep_v45 : StableHlo.after hostOps2 V (Proc.devRef .tc main_v45) = V (Proc.devRef .tc main_v45) := by after_results
theorem s2a_keep_v49 : StableHlo.after hostOps2_1 V (Proc.devRef .tc main_v49) = V (Proc.devRef .tc main_v49) := by after_results
theorem s2a_keep_v52 : StableHlo.after hostOps2_1 V (Proc.devRef .tc main_v52) = V (Proc.devRef .tc main_v52) := by after_results
theorem s2a_keep_v45 : StableHlo.after hostOps2_1 V (Proc.devRef .tc main_v45) = V (Proc.devRef .tc main_v45) := by after_results
theorem s2b_keep_v49 : StableHlo.after hostOps2_2 V (Proc.devRef .tc main_v49) = V (Proc.devRef .tc main_v49) := by after_results
theorem s2b_keep_v52 : StableHlo.after hostOps2_2 V (Proc.devRef .tc main_v52) = V (Proc.devRef .tc main_v52) := by after_results
theorem s2b_keep_v45 : StableHlo.after hostOps2_2 V (Proc.devRef .tc main_v45) = V (Proc.devRef .tc main_v45) := by after_results
theorem s4_keep_v91 : StableHlo.after hostOps4 V (Proc.devRef .tc main_v91) = V (Proc.devRef .tc main_v91) := by after_results

/-- The first bias, reshaped to one row. -/
theorem s1_bias : StableHlo.after hostOps1 V (Proc.devRef .tc main_v44) = shapeCast S1x64 (V (Proc.devRef .tc main_arg3)) shapeCasts_S64_S1x64 := by
  after_results; rfl
/-- The second bias, reshaped to one row. -/
theorem s3_bias : StableHlo.after hostOps3 V (Proc.devRef .tc main_v90) = shapeCast S1x32 (V (Proc.devRef .tc main_arg5)) shapeCasts_S32_S1x32 := by
  after_results; rfl
/-- The final bias, reshaped to one row. -/
theorem s4_bias : StableHlo.after hostOps4 V (Proc.devRef .tc main_v92) = shapeCast S1x32 (V (Proc.devRef .tc main_arg7)) shapeCasts_S32_S1x32 := by
  after_results; rfl

end Steps

/-! ## Along the kernel's fold

`Wk m ρ c` is what core c's buffers hold at @main's k-th segment boundary. The index arrays and the normalisation do
not depend on the regions; each aggregation is stated from what the region before it left. -/

section Fold

variable (c : Dev nD)

/-! ### Before region 0 -/

theorem degpos_1 : W1 m ρ c (Proc.devRef .tc main_v12) = Cert.ReferenceIdeal.ReadP.val_main_v13 (F := F) (m ((c : Thread nD τ).loc main_arg1)) := s0_degpos (W0 m ρ c)
theorem degrsqrt_1 : W1 m ρ c (Proc.devRef .tc main_v13) = Cert.ReferenceIdeal.ReadP.val_main_v14 (F := F) (m ((c : Thread nD τ).loc main_arg1)) := s0_degrsqrt (W0 m ρ c)
theorem zero_1 : W1 m ρ c (Proc.devRef .tc main_cst_2) = Cert.ReferenceIdeal.ReadP.val_main_cst_2 (F := F) := s0_zero (W0 m ρ c)
theorem src_1 : W1 m ρ c (Proc.devRef .tc main_v3) = Cert.ReferenceIdeal.ReadP.val_main_v3 (F := F) (m ((c : Thread nD τ).loc main_arg1)) := s0_src (W0 m ρ c)
theorem dst_1 : W1 m ρ c (Proc.devRef .tc main_v6) = Cert.ReferenceIdeal.ReadP.val_main_v7 (F := F) (m ((c : Thread nD τ).loc main_arg1)) := s0_dst (W0 m ρ c)
theorem dis_2 : W2 m ρ c (Proc.devRef .tc main_v14) = Cert.ReferenceIdeal.ReadP.val_main_v15 (F := F) (m ((c : Thread nD τ).loc main_arg1)) :=
  s0_dis (W1 m ρ c) _ (degpos_1 m ρ c) (degrsqrt_1 m ρ c) (zero_1 m ρ c)
theorem src_2 : W2 m ρ c (Proc.devRef .tc main_v3) = Cert.ReferenceIdeal.ReadP.val_main_v3 (F := F) (m ((c : Thread nD τ).loc main_arg1)) := (s0a_keep_v3 (W1 m ρ c)).trans (src_1 m ρ c)
theorem dst_2 : W2 m ρ c (Proc.devRef .tc main_v6) = Cert.ReferenceIdeal.ReadP.val_main_v7 (F := F) (m ((c : Thread nD τ).loc main_arg1)) := (s0a_keep_v6 (W1 m ρ c)).trans (dst_1 m ρ c)
theorem norm_3 : W3 m ρ c (Proc.devRef .tc main_v29) = Cert.ReferenceIdeal.ReadP.val_main_v30 (F := F) (m ((c : Thread nD τ).loc main_arg1)) :=
  s0_norm (W2 m ρ c) _ (dis_2 m ρ c) (src_2 m ρ c) (dst_2 m ρ c)
theorem src_3 : W3 m ρ c (Proc.devRef .tc main_v3) = Cert.ReferenceIdeal.ReadP.val_main_v3 (F := F) (m ((c : Thread nD τ).loc main_arg1)) := (s0b_keep_v3 (W2 m ρ c)).trans (src_2 m ρ c)
theorem dst_3 : W3 m ρ c (Proc.devRef .tc main_v6) = Cert.ReferenceIdeal.ReadP.val_main_v7 (F := F) (m ((c : Thread nD τ).loc main_arg1)) := (s0b_keep_v6 (W2 m ρ c)).trans (dst_2 m ρ c)
/-- The features and the first weights are as launched when region 0 is entered. -/
theorem arg0_3 : W3 m ρ c (Proc.devRef .tc main_arg0) = (m ((c : Thread nD τ).loc main_arg0)) := by fold_back
theorem arg2_3 : W3 m ρ c (Proc.devRef .tc main_arg2) = (m ((c : Thread nD τ).loc main_arg2)) := by fold_back

/-! ### Between region 0 and region 1 -/

theorem src_4 : W4 m ρ c (Proc.devRef .tc main_v3) = Cert.ReferenceIdeal.ReadP.val_main_v3 (F := F) (m ((c : Thread nD τ).loc main_arg1)) := (W4_of_ne m ρ c main_v3 (by decide)).trans (src_3 m ρ c)
theorem dst_4 : W4 m ρ c (Proc.devRef .tc main_v6) = Cert.ReferenceIdeal.ReadP.val_main_v7 (F := F) (m ((c : Thread nD τ).loc main_arg1)) := (W4_of_ne m ρ c main_v6 (by decide)).trans (dst_3 m ρ c)
theorem norm_4 : W4 m ρ c (Proc.devRef .tc main_v29) = Cert.ReferenceIdeal.ReadP.val_main_v30 (F := F) (m ((c : Thread nD τ).loc main_arg1)) := (W4_of_ne m ρ c main_v29 (by decide)).trans (norm_3 m ρ c)
/-- The first aggregation, of whatever region 0 left when that is the reference's product. -/
theorem agg_5 (h : W4 m ρ c (Proc.devRef .tc main_v30) = Cert.ReferenceIdeal.ReadP.val_main_v31 (F := F) (m ((c : Thread nD τ).loc main_arg0)) (m ((c : Thread nD τ).loc main_arg2))) : W5 m ρ c (Proc.devRef .tc main_v43) = Cert.ReferenceIdeal.ReadP.val_main_v44 (F := F) (m ((c : Thread nD τ).loc main_arg0)) (m ((c : Thread nD τ).loc main_arg1)) (m ((c : Thread nD τ).loc main_arg2)) :=
  s1_agg (W4 m ρ c) _ _ _ h (src_4 m ρ c) (dst_4 m ρ c) (norm_4 m ρ c)
theorem arg3_4 : W4 m ρ c (Proc.devRef .tc main_arg3) = (m ((c : Thread nD τ).loc main_arg3)) := by fold_back
theorem bias_5 : W5 m ρ c (Proc.devRef .tc main_v44) = shapeCast S1x64 (m ((c : Thread nD τ).loc main_arg3)) shapeCasts_S64_S1x64 :=
  (s1_bias (W4 m ρ c)).trans (congrArg (fun v => shapeCast S1x64 v shapeCasts_S64_S1x64) (arg3_4 m ρ c))

/-! ### Between region 1 and region 2 -/

theorem arg1_6 : W6 m ρ c (Proc.devRef .tc main_arg1) = (m ((c : Thread nD τ).loc main_arg1)) := by fold_back
theorem degpos_7 : W7 m ρ c (Proc.devRef .tc main_v58) = Cert.ReferenceIdeal.ReadP.val_main_v62 (F := F) (m ((c : Thread nD τ).loc main_arg1)) :=
  (s2_degpos (W6 m ρ c)).trans (congrArg (Cert.ReferenceIdeal.ReadP.val_main_v62 (F := F)) (arg1_6 m ρ c))
theorem degrsqrt_7 : W7 m ρ c (Proc.devRef .tc main_v59) = Cert.ReferenceIdeal.ReadP.val_main_v63 (F := F) (m ((c : Thread nD τ).loc main_arg1)) :=
  (s2_degrsqrt (W6 m ρ c)).trans (congrArg (Cert.ReferenceIdeal.ReadP.val_main_v63 (F := F)) (arg1_6 m ρ c))
theorem zero_7 : W7 m ρ c (Proc.devRef .tc main_cst_12) = Cert.ReferenceIdeal.ReadP.val_main_cst_12 (F := F) := s2_zero (W6 m ρ c)
theorem src_7 : W7 m ρ c (Proc.devRef .tc main_v49) = Cert.ReferenceIdeal.ReadP.val_main_v52 (F := F) (m ((c : Thread nD τ).loc main_arg1)) :=
  (s2_src (W6 m ρ c)).trans (congrArg (Cert.ReferenceIdeal.ReadP.val_main_v52 (F := F)) (arg1_6 m ρ c))
theorem dst_7 : W7 m ρ c (Proc.devRef .tc main_v52) = Cert.ReferenceIdeal.ReadP.val_main_v56 (F := F) (m ((c : Thread nD τ).loc main_arg1)) :=
  (s2_dst (W6 m ρ c)).trans (congrArg (Cert.ReferenceIdeal.ReadP.val_main_v56 (F := F)) (arg1_6 m ρ c))
theorem dis_8 : W8 m ρ c (Proc.devRef .tc main_v60) = Cert.ReferenceIdeal.ReadP.val_main_v64 (F := F) (m ((c : Thread nD τ).loc main_arg1)) :=
  s2_dis (W7 m ρ c) _ (degpos_7 m ρ c) (degrsqrt_7 m ρ c) (zero_7 m ρ c)
theorem src_8 : W8 m ρ c (Proc.devRef .tc main_v49) = Cert.ReferenceIdeal.ReadP.val_main_v52 (F := F) (m ((c : Thread nD τ).loc main_arg1)) := (s2a_keep_v49 (W7 m ρ c)).trans (src_7 m ρ c)
theorem dst_8 : W8 m ρ c (Proc.devRef .tc main_v52) = Cert.ReferenceIdeal.ReadP.val_main_v56 (F := F) (m ((c : Thread nD τ).loc main_arg1)) := (s2a_keep_v52 (W7 m ρ c)).trans (dst_7 m ρ c)
theorem norm_9 : W9 m ρ c (Proc.devRef .tc main_v75) = Cert.ReferenceIdeal.ReadP.val_main_v79 (F := F) (m ((c : Thread nD τ).loc main_arg1)) :=
  s2_norm (W8 m ρ c) _ (dis_8 m ρ c) (src_8 m ρ c) (dst_8 m ρ c)
theorem src_9 : W9 m ρ c (Proc.devRef .tc main_v49) = Cert.ReferenceIdeal.ReadP.val_main_v52 (F := F) (m ((c : Thread nD τ).loc main_arg1)) := (s2b_keep_v49 (W8 m ρ c)).trans (src_8 m ρ c)
theorem dst_9 : W9 m ρ c (Proc.devRef .tc main_v52) = Cert.ReferenceIdeal.ReadP.val_main_v56 (F := F) (m ((c : Thread nD τ).loc main_arg1)) := (s2b_keep_v52 (W8 m ρ c)).trans (dst_8 m ρ c)
/-- The first layer's output reaches region 2 as region 1 left it. -/
theorem out1_9 : W9 m ρ c (Proc.devRef .tc main_v45) = W6 m ρ c (Proc.devRef .tc main_v45) :=
  (s2b_keep_v45 (W8 m ρ c)).trans ((s2a_keep_v45 (W7 m ρ c)).trans (s2_keep_v45 (W6 m ρ c)))
theorem arg4_9 : W9 m ρ c (Proc.devRef .tc main_arg4) = (m ((c : Thread nD τ).loc main_arg4)) := by fold_back

/-! ### Between region 2 and region 3 -/

theorem src_10 : W10 m ρ c (Proc.devRef .tc main_v49) = Cert.ReferenceIdeal.ReadP.val_main_v52 (F := F) (m ((c : Thread nD τ).loc main_arg1)) := (W10_of_ne m ρ c main_v49 (by decide)).trans (src_9 m ρ c)
theorem dst_10 : W10 m ρ c (Proc.devRef .tc main_v52) = Cert.ReferenceIdeal.ReadP.val_main_v56 (F := F) (m ((c : Thread nD τ).loc main_arg1)) := (W10_of_ne m ρ c main_v52 (by decide)).trans (dst_9 m ρ c)
theorem norm_10 : W10 m ρ c (Proc.devRef .tc main_v75) = Cert.ReferenceIdeal.ReadP.val_main_v79 (F := F) (m ((c : Thread nD τ).loc main_arg1)) := (W10_of_ne m ρ c main_v75 (by decide)).trans (norm_9 m ρ c)
/-- The second aggregation, of whatever region 2 left when that is the reference's product. -/
theorem agg_11 (h : W10 m ρ c (Proc.devRef .tc main_v76) = Cert.ReferenceIdeal.ReadP.val_main_v80 (F := F) (m ((c : Thread nD τ).loc main_arg0)) (m ((c : Thread nD τ).loc main_arg1)) (m ((c : Thread nD τ).loc main_arg2)) (m ((c : Thread nD τ).loc main_arg3)) (m ((c : Thread nD τ).loc main_arg4))) : W11 m ρ c (Proc.devRef .tc main_v89) = Cert.ReferenceIdeal.ReadP.val_main_v93 (F := F) (m ((c : Thread nD τ).loc main_arg0)) (m ((c : Thread nD τ).loc main_arg1)) (m ((c : Thread nD τ).loc main_arg2)) (m ((c : Thread nD τ).loc main_arg3)) (m ((c : Thread nD τ).loc main_arg4)) :=
  s3_agg (W10 m ρ c) _ _ _ _ _ h (src_10 m ρ c) (dst_10 m ρ c) (norm_10 m ρ c)
theorem arg5_10 : W10 m ρ c (Proc.devRef .tc main_arg5) = (m ((c : Thread nD τ).loc main_arg5)) := by fold_back
theorem bias_11 : W11 m ρ c (Proc.devRef .tc main_v90) = shapeCast S1x32 (m ((c : Thread nD τ).loc main_arg5)) shapeCasts_S32_S1x32 :=
  (s3_bias (W10 m ρ c)).trans (congrArg (fun v => shapeCast S1x32 v shapeCasts_S32_S1x32) (arg5_10 m ρ c))

/-! ### Between region 3 and region 4 -/

theorem arg7_12 : W12 m ρ c (Proc.devRef .tc main_arg7) = (m ((c : Thread nD τ).loc main_arg7)) := by fold_back
theorem bias_13 : W13 m ρ c (Proc.devRef .tc main_v92) = shapeCast S1x32 (m ((c : Thread nD τ).loc main_arg7)) shapeCasts_S32_S1x32 :=
  (s4_bias (W12 m ρ c)).trans (congrArg (fun v => shapeCast S1x32 v shapeCasts_S32_S1x32) (arg7_12 m ρ c))
theorem out3_13 : W13 m ρ c (Proc.devRef .tc main_v91) = W12 m ρ c (Proc.devRef .tc main_v91) := s4_keep_v91 (W12 m ρ c)
theorem arg6_13 : W13 m ρ c (Proc.devRef .tc main_arg6) = (m ((c : Thread nD τ).loc main_arg6)) := by fold_back

end Fold

end Cert.KernelIdeal.Stretch

end
-- ==== Proof.GcnSpec.lean ====
/-
  The dense pieces of a two-layer graph convolution with a final linear layer, as functions on the
  extended reals, index by index: a matrix product `dense x w` (entry (r, j) is the sum over k of
  x(r, k) · w(k, j)), a bias added along the rows followed by the rectifier `biasRelu a b` (entry (r, j)
  is max(a(r, j) + b(0, j), 0)), and a vector laid out as a one-row matrix, `row`.
  Both programs are read against these: the kernel's five pipelined regions compute them block of rows by
  block of rows, the reference as whole-array operations.
-/
import Idealize.ShloMosaic.PureOps.Ideal
import Idealize.ShloMosaic.Lib.ValueIdx

noncomputable section

namespace Cert.GcnSpec

open Idealize.ShloMosaic Idealize.ShloMosaic.ValueIdx

/-- An n × d matrix of extended reals, indexed as a rank-2 array. -/
abbrev Mat (n d : Nat) : Type := (⟨2, ![n, d]⟩ : Shape).Idx → EReal
/-- A length-e vector of extended reals, indexed as a rank-1 array. -/
abbrev Vc (e : Nat) : Type := (⟨1, ![e]⟩ : Shape).Idx → EReal

/-- The matrix product: entry (r, j) is the sum over k of x(r, k) · w(k, j). -/
def dense {n d e : Nat} (x : Mat n d) (w : Mat d e) : Mat n e :=
  fun i => ∑ k : Fin d, x (ix2 (i 0) k) * w (ix2 k (i 1))

/-- A bias row added to every row, then the rectifier: entry (r, j) is max(a(r, j) + b(0, j), 0). -/
def biasRelu {n e : Nat} (a : Mat n e) (b : Mat 1 e) : Mat n e :=
  fun i => max (a i + b (ix2 (0 : Fin 1) (i 1))) 0

/-- A vector as a one-row matrix. -/
def row {e : Nat} (v : Vc e) : Mat 1 e := fun i => v (ix1 (i 1))

theorem dense_apply {n d e : Nat} (x : Mat n d) (w : Mat d e) (r : Fin n) (j : Fin e) :
    dense x w (ix2 r j) = ∑ k : Fin d, x (ix2 r k) * w (ix2 k j) := rfl

theorem biasRelu_apply {n e : Nat} (a : Mat n e) (b : Mat 1 e) (r : Fin n) (j : Fin e) :
    biasRelu a b (ix2 r j) = max (a (ix2 r j) + b (ix2 (0 : Fin 1) j)) 0 := rfl

theorem row_apply {e : Nat} (v : Vc e) (j : Fin e) : row v (ix2 (0 : Fin 1) j) = v (ix1 j) := rfl

end Cert.GcnSpec

end
-- ==== Proof.RefStages.lean ====
/-
  The reference program read against the specification. Its run and its read-at-an-index lemmas are imported;
  written here is that each of its five dense stages is the specification's function of the stage before it:
  the first layer's features x · W₁, its bias and rectifier over the aggregated features, the second layer's
  features and bias with rectifier, and the final linear layer max(h · W + b, 0). Index by index a host
  `dot_general` is the plain sum over the contracted axis, a bias vector broadcast first to a row and then down
  the rows is read at the column, and the rectifier's zero constant is the extended real 0.
-/
import proofs.«112965_j69638599737458_1_alg».proof.Proof.RefRun
import proofs.«112965_j69638599737458_1_alg».proof.Proof.RefRead
import proofs.«112965_j69638599737458_1_alg».proof.Proof.GcnSpec

noncomputable section

namespace Cert.ReferenceIdeal.Stages

open Cert.ReferenceIdeal Cert.ReferenceIdeal.ReadP Cert.GcnSpec
open Idealize.ShloMosaic Idealize.ShloMosaic.ValueIdx

variable (x0 : (⟨S100000x4, .f32⟩ : BufTy).Contents (Elt Ideal)) (x1 : (⟨S2x3200000, .i32⟩ : BufTy).Contents (Elt Ideal))
  (x2 : (⟨S4x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))

/-- The rectifier's constant is the extended real zero. -/
theorem zero_word : (FloatOps.ofBits (F := Ideal) .f32 0x00000000#32 : EReal) = 0 := Ideal.ofBits_zero_f32

/-- A sum of products whose factors are read at the row and the column of the output index is the matrix product
    there: the two spellings of "row r, position k" and "position k, column j" are the same indices. -/
theorem sum_eq_dense {n d e : Nat} (x : Mat n d) (w : Mat d e) (i : (⟨2, ![n, e]⟩ : Shape).Idx)
    (li : Fin d → (⟨2, ![n, d]⟩ : Shape).Idx) (ri : Fin d → (⟨2, ![d, e]⟩ : Shape).Idx)
    (hl : ∀ k, li k = ix2 (i 0) k) (hr : ∀ k, ri k = ix2 k (i 1)) :
    ∑ k : Fin d, x (li k) * w (ri k) = dense x w i :=
  Finset.sum_congr rfl fun k _ => congrArg₂ (fun p q : EReal => p * q) (congrArg x (hl k)) (congrArg w (hr k))

/-- Bias and rectifier read at an index: max(s + t, z) with s the entry, t the bias at the column and z zero. -/
theorem biasRelu_of {n e : Nat} (a : Mat n e) (v : Vc e) (i : (⟨2, ![n, e]⟩ : Shape).Idx) (s t z : EReal)
    (hs : s = a i) (ht : t = v (ix1 (i 1))) (hz : z = 0) :
    FloatOps.maximumf (F := Ideal) (φ := .f32) (FloatOps.addf (F := Ideal) (φ := .f32) s t) z = biasRelu a (row v) i := by
  subst hs ht hz; rfl

/-- The first layer's features: the host's product of x and W₁ is the matrix product. -/
theorem features1 : val_main_v31 (F := Ideal) x0 x2 = dense (n := 100000) (d := 4) (e := 64) x0 x2 :=
  funext fun i => (val_main_v31_apply x0 x2 i).trans
    (sum_eq_dense (n := 100000) (d := 4) (e := 64) x0 x2 i (lidx_main_v31 i) (ridx_main_v31 i)
      (fun k => funext fun a => match a with | ⟨0, _⟩ => rfl | ⟨1, _⟩ => rfl) (fun k => funext fun a => match a with | ⟨0, _⟩ => rfl | ⟨1, _⟩ => rfl))

/-- The first layer's output: bias along the rows, then the rectifier, over the aggregated features. -/
theorem layer1 : val_main_v48 (F := Ideal) x0 x1 x2 x3
    = biasRelu (n := 100000) (e := 64) (val_main_v44 (F := Ideal) x0 x1 x2) (row (e := 64) x3) :=
  funext fun i =>
    ((val_main_v48_apply (F := Ideal) x0 x1 x2 x3 i).trans
      (congrArg (fun s : EReal => FloatOps.maximumf (F := Ideal) (φ := .f32) s (val_main_call1_v0 (F := Ideal) i)) (val_main_v47_apply (F := Ideal) x0 x1 x2 x3 i))).trans
    (biasRelu_of (n := 100000) (e := 64) (val_main_v44 (F := Ideal) x0 x1 x2) x3 i _ _ _ rfl
      ((val_main_v46_apply (F := Ideal) x3 i).trans ((val_main_v45_apply (F := Ideal) x3 _).trans (congrArg x3 (funext fun a => match a with | ⟨0, _⟩ => rfl))))
      ((val_main_call1_v0_apply (F := Ideal) i).trans ((val_main_call1_cst_apply (F := Ideal) _).trans zero_word)))

/-- The second layer's features: the host's product of the first layer's output and W₂. -/
theorem features2 : val_main_v80 (F := Ideal) x0 x1 x2 x3 x4 = dense (n := 100000) (d := 64) (e := 32) (val_main_v48 (F := Ideal) x0 x1 x2 x3) x4 :=
  funext fun i => (val_main_v80_apply x0 x1 x2 x3 x4 i).trans
    (sum_eq_dense (n := 100000) (d := 64) (e := 32) (val_main_v48 (F := Ideal) x0 x1 x2 x3) x4 i (lidx_main_v80 i) (ridx_main_v80 i)
      (fun k => funext fun a => match a with | ⟨0, _⟩ => rfl | ⟨1, _⟩ => rfl) (fun k => funext fun a => match a with | ⟨0, _⟩ => rfl | ⟨1, _⟩ => rfl))

/-- The second layer's output. -/
theorem layer2 : val_main_v97 (F := Ideal) x0 x1 x2 x3 x4 x5
    = biasRelu (n := 100000) (e := 32) (val_main_v93 (F := Ideal) x0 x1 x2 x3 x4) (row (e := 32) x5) :=
  funext fun i =>
    ((val_main_v97_apply (F := Ideal) x0 x1 x2 x3 x4 x5 i).trans
      (congrArg (fun s : EReal => FloatOps.maximumf (F := Ideal) (φ := .f32) s (val_main_call3_v0 (F := Ideal) i)) (val_main_v96_apply (F := Ideal) x0 x1 x2 x3 x4 x5 i))).trans
    (biasRelu_of (n := 100000) (e := 32) (val_main_v93 (F := Ideal) x0 x1 x2 x3 x4) x5 i _ _ _ rfl
      ((val_main_v95_apply (F := Ideal) x5 i).trans ((val_main_v94_apply (F := Ideal) x5 _).trans (congrArg x5 (funext fun a => match a with | ⟨0, _⟩ => rfl))))
      ((val_main_call3_v0_apply (F := Ideal) i).trans ((val_main_call3_cst_apply (F := Ideal) _).trans zero_word)))

/-- The final linear layer with its bias and rectifier. -/
theorem final : val_main_v102 (F := Ideal) x0 x1 x2 x3 x4 x5 x6 x7
    = biasRelu (n := 100000) (e := 32)
        (dense (n := 100000) (d := 32) (e := 32) (val_main_v97 (F := Ideal) x0 x1 x2 x3 x4 x5) x6) (row (e := 32) x7) :=
  funext fun i =>
    ((val_main_v102_apply (F := Ideal) x0 x1 x2 x3 x4 x5 x6 x7 i).trans
      (congrArg (fun s : EReal => FloatOps.maximumf (F := Ideal) (φ := .f32) s (val_main_call4_v0 (F := Ideal) i)) (val_main_v101_apply (F := Ideal) x0 x1 x2 x3 x4 x5 x6 x7 i))).trans
    (biasRelu_of (n := 100000) (e := 32) (dense (n := 100000) (d := 32) (e := 32) (val_main_v97 (F := Ideal) x0 x1 x2 x3 x4 x5) x6) x7 i _ _ _
      ((val_main_v98_apply x0 x1 x2 x3 x4 x5 x6 i).trans
        (sum_eq_dense (n := 100000) (d := 32) (e := 32) (val_main_v97 (F := Ideal) x0 x1 x2 x3 x4 x5) x6 i (lidx_main_v98 i) (ridx_main_v98 i)
          (fun k => funext fun a => match a with | ⟨0, _⟩ => rfl | ⟨1, _⟩ => rfl) (fun k => funext fun a => match a with | ⟨0, _⟩ => rfl | ⟨1, _⟩ => rfl)))
      ((val_main_v100_apply (F := Ideal) x7 i).trans ((val_main_v99_apply (F := Ideal) x7 _).trans (congrArg x7 (funext fun a => match a with | ⟨0, _⟩ => rfl))))
      ((val_main_call4_v0_apply (F := Ideal) i).trans ((val_main_call4_cst_apply (F := Ideal) _).trans zero_word)))

end Cert.ReferenceIdeal.Stages

end
-- ==== Proof.Region0.lean ====
/-
  Region 0 (the first layer's linear map): after the ten grid points the output array holds the matrix product of the 100000 × 4 feature array and the 4 × 64 weight array, whatever the region found in them: each point writes back the product of its block of 10000 rows, and the ten blocks tile the rows.
-/
import proofs.«112965_j69638599737458_1_alg».proof.Proof.Gen.KernelIdeal.Frame
import proofs.«112965_j69638599737458_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

/-- The matrix product's dimension numbers: the left factor's axis 1 is contracted against the right factor's axis 0.
    At output index j and contraction index k the left factor is read at (j 0, k) … -/
theorem lhs0_axis0 (j : S10000x64.Idx) (k : dot_S10000x4_S4x64_S10000x64_1_0_0_1_n_n.contr.Idx) :
    (dot_S10000x4_S4x64_S10000x64_1_0_0_1_n_n.lhsIdx j k 0).val = (j 0).val := rfl
theorem lhs0_axis1 (j : S10000x64.Idx) (k : dot_S10000x4_S4x64_S10000x64_1_0_0_1_n_n.contr.Idx) :
    (dot_S10000x4_S4x64_S10000x64_1_0_0_1_n_n.lhsIdx j k 1).val = (k ⟨0, by decide⟩).val := rfl
/-- … and the right factor at (k, j 1). -/
theorem rhs0_axis0 (j : S10000x64.Idx) (k : dot_S10000x4_S4x64_S10000x64_1_0_0_1_n_n.contr.Idx) :
    (dot_S10000x4_S4x64_S10000x64_1_0_0_1_n_n.rhsIdx j k 0).val = (k ⟨0, by decide⟩).val := rfl
theorem rhs0_axis1 (j : S10000x64.Idx) (k : dot_S10000x4_S4x64_S10000x64_1_0_0_1_n_n.contr.Idx) :
    (dot_S10000x4_S4x64_S10000x64_1_0_0_1_n_n.rhsIdx j k 1).val = (j 1).val := rfl

/-- THE BODY'S VALUE AT AN INDEX: entry (p, q) of what the body stores is the sum over k of x0(p, k) · x1(k, q).
    The change of float format is the identity on the extended reals, the accumulator is the zero splat, and the
    contraction index is its one coordinate. -/
theorem payload0_apply (x0 : Vec Ideal S10000x4 .f32) (x1 : Vec Ideal S4x64 .f32) (p : Fin 10000) (q : Fin 64) :
    k0_pay1 x0 x1 (ix2 p q) = ∑ k : Fin 4, x0 (ix2 p k) * x1 (ix2 k q) := by
  unfold k0_pay1
  refine (Ideal.matmul_constant_zero_apply dot_S10000x4_S4x64_S10000x64_1_0_0_1_n_n none _ _ (ix2 p q)).trans ?_
  rw [← Equiv.sum_comp (contrEquiv1 dot_S10000x4_S4x64_S10000x64_1_0_0_1_n_n 4 rfl rfl).symm]
  refine Finset.sum_congr rfl fun k _ => ?_
  -- the left factor is read at (p, k), the right factor at (k, q)
  have hl : dot_S10000x4_S4x64_S10000x64_1_0_0_1_n_n.lhsIdx (ix2 p q)
      ((contrEquiv1 dot_S10000x4_S4x64_S10000x64_1_0_0_1_n_n 4 rfl rfl).symm k) = ix2 p k :=
    Shape.idx_ext₂ (lhs0_axis0 _ _)
      ((lhs0_axis1 _ _).trans (contrEquiv1_symm_val dot_S10000x4_S4x64_S10000x64_1_0_0_1_n_n 4 rfl rfl k))
  have hr : dot_S10000x4_S4x64_S10000x64_1_0_0_1_n_n.rhsIdx (ix2 p q)
      ((contrEquiv1 dot_S10000x4_S4x64_S10000x64_1_0_0_1_n_n 4 rfl rfl).symm k) = ix2 k q :=
    Shape.idx_ext₂
      ((rhs0_axis0 _ _).trans (contrEquiv1_symm_val dot_S10000x4_S4x64_S10000x64_1_0_0_1_n_n 4 rfl rfl k))
      (rhs0_axis1 _ _)
  rw [truncf_apply, truncf_apply, hl, hr]

/-- The zero offsets of a whole-buffer access, as a constant function. -/
theorem zero_offsets0 : (![0, 0] : Fin 2 → Nat) = fun _ => 0 := funext fun a => by fin_cases a <;> rfl

/-- The printed index maps, decided over the ten grid points: the feature window and the output window are at
    row block t, column block 0; the weight window is the whole array at every point. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- ONE BLOCK OF ROWS. If on row j 0 the block x0 holds row i 0 of X, and on column j 1 the block x1 holds column
    i 1 of W, then the body's value at j is entry i of the product X · W. -/
theorem block_value0 (x0 : Vec Ideal S10000x4 .f32) (x1 : Vec Ideal S4x64 .f32)
    (X : Mat 100000 4) (W : Mat 4 64) (j : S10000x64.Idx) (i : S100000x64.Idx)
    (h0 : ∀ k : Fin 4, x0 (ix2 (j 0) k) = X (ix2 (i 0) k))
    (h1 : ∀ k : Fin 4, x1 (ix2 k (j 1)) = W (ix2 k (i 1))) :
    k0_pay1 x0 x1 j = dense X W i := by
  obtain ⟨p, q, rfl⟩ : ∃ (p : Fin 10000) (q : Fin 64), j = ix2 p q := ⟨j 0, j 1, eq_ix2 j⟩
  rw [payload0_apply]
  exact Finset.sum_congr rfl fun k _ => congrArg₂ (· * ·) (h0 k) (h1 k)

-- the TensorCore's buffer contents when the region is entered, at the extended reals
variable (V : (c : Dev nD) → (b : Ref sig .tc) → Buf (Elt Ideal) ((c : Thread nD τ).loc b))

/-- WHAT POINT t WRITES BACK is block t of the product of the two arrays as the region finds them: the feature
    block is rows t · 10000 … of the feature array, the weight block is the whole weight array, and the output
    block sits at rows t · 10000 … of the output array. -/
theorem flushed0_eq (c : Dev nD) (t : Fin cfg0.N) :
    (dat0 (F := Ideal) V c).flushed 2 t
      = ((cfg0.win 2).blk t).view.read (Elt Ideal)
          (dense (n := 100000) (d := 4) (e := 64) (V c main_arg0) (V c main_arg2)) := by
  show (cfg0.win 2).cut (grid0.coords t) ((dat0 V c).after 2 t) = _
  rw [after0_2]
  unfold out0_2
  rw [View.canon_unit_zero zero_offsets0]
  simp only [View.ld_unit_zero (S := S10000x4) zero_offsets0, View.ld_unit_zero (S := S4x64) zero_offsets0]
  obtain ⟨e00, e01, e10, e11, e20, e21⟩ := block_index0 t
  funext j
  show k0_pay1 (iblk0 V c 0 t) (iblk0 V c 1 t) j
      = dense (n := 100000) (d := 4) (e := 64) (V c main_arg0) (V c main_arg2) (((cfg0.win 2).blk t).view.emb j)
  refine block_value0 (iblk0 V c 0 t) (iblk0 V c 1 t) (V c main_arg0) (V c main_arg2) j
    (((cfg0.win 2).blk t).view.emb j) (fun k => ?_) (fun k => ?_)
  · -- row j 0 of the feature block is row t · 10000 + j 0 of the feature array
    show V c main_arg0 (((cfg0.win 0).blk t).view.emb (ix2 (j 0) k))
        = V c main_arg0 (ix2 (((cfg0.win 2).blk t).view.emb j 0) k)
    refine congrArg (V c main_arg0) ?_
    funext a; apply Fin.ext
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 4 + 1 * k.val = k.val
      omega
  · -- column j 1 of the weight block is column j 1 of the weight array
    show V c main_arg2 (((cfg0.win 1).blk t).view.emb (ix2 k (j 1)))
        = V c main_arg2 (ix2 k (((cfg0.win 2).blk t).view.emb j 1))
    refine congrArg (V c main_arg2) ?_
    funext a; apply Fin.ext
    match a with
    | ⟨0, _⟩ =>
      show win0_1.index t (0 : Fin 2) * 4 + 1 * k.val = k.val
      omega
    | ⟨1, _⟩ =>
      show win0_1.index t (1 : Fin 2) * 64 + 1 * (j 1).val = win0_2.index t (1 : Fin 2) * 64 + 1 * (j 1).val
      omega

/-- An index of the output array is in point t's block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- THE TEN BLOCKS TILE THE ROWS: row r of the output array is in the block of point r / 10000, and every point
    writes its block back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, lt_of_lt_of_eq (by omega : (i 0).val / 10000 < 10) N_0.symm⟩, rfl⟩
  obtain ⟨-, -, -, -, e20, e21⟩ := block_index0 t
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After region 0 its output array is x · W, x and W the arrays the region found. -/
theorem array0 (c : Dev nD) :
    (dat0 (F := Ideal) V c).arrAt 2 cfg0.N
      = dense (n := 100000) (d := 4) (e := 64) (V c main_arg0) (V c main_arg2) := by
  exact (dat0 (F := Ideal) V c).arrAt_eq_of_cover 2
    (dense (n := 100000) (d := 4) (e := 64) (V c main_arg0) (V c main_arg2))
    (fun t _ => flushed0_eq V c t) cover0

end Cert.KernelIdeal.RegionValue

end
-- ==== Proof.Region1.lean ====
/-
  Region 1 (the first layer's bias and rectifier): after the ten grid points the output array holds max(a + b, 0), a the 100000 × 64 aggregated array and b the 1 × 64 bias row the region found: each point writes back its block of 10000 rows, and the ten blocks tile the rows.
-/
import proofs.«112965_j69638599737458_1_alg».proof.Proof.Gen.KernelIdeal.Frame
import proofs.«112965_j69638599737458_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

-- the TensorCore's buffer contents when the region is entered, at the extended reals
variable (V : (c : Dev nD) → (b : Ref sig .tc) → Buf (Elt Ideal) ((c : Thread nD τ).loc b))

/-- The store's and the loads' offsets are zero on both axes. -/
theorem zero_offsets1 : (![0, 0] : Fin 2 → Nat) = fun _ => 0 := funext fun a => by fin_cases a <;> rfl

/-- The printed index maps over the ten grid points: the row-blocked windows (input 0, output 2) are at block row t,
    block column 0; the bias window (input 1) stays at block (0, 0). -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The 1 × 64 bias row broadcast along the 10000 rows reads, at (p, q), the row's entry q. -/
theorem bias_row1 (x : Vec Ideal S1x64 .f32) (p : Fin 10000) (q : Fin 64) :
    broadcastTo S10000x64 x broadcasts_S1x64_S10000x64 (ix2 p q) = x (ix2 (0 : Fin 1) q) := by
  refine broadcastTo_apply x broadcasts_S1x64_S10000x64 (ix2 p q) (ix2 (0 : Fin 1) q) fun a => ?_
  match a with
  | ⟨0, _⟩ => rfl
  | ⟨1, _⟩ => rfl

/-- The body's payload at (p, q): max(a(p, q) + b(0, q), 0) of the two loaded blocks. -/
theorem payload1_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) 0 := by
  unfold k1_pay1
  rw [maximumf_apply, addf_apply, broadcast_apply, shapeCast_self, shapeCast_self, bias_row1]
  show max _ (Ideal.ofBits .f32 0x00000000#32) = _
  rw [Ideal.ofBits_zero_f32]

/-- The payload of two blocks that are a block of rows of a and the whole of b is, entry by entry, max(a + b, 0) at the
    array index the entry sits at: the entry's row in a is the array's row i 0, its column the array's column i 1. -/
theorem payload1_block (x0 : Vec Ideal S10000x64 .f32) (x1 : Vec Ideal S1x64 .f32)
    (a : Mat 100000 64) (b : Mat 1 64) (j : S10000x64.Idx) (i : S100000x64.Idx)
    (h0 : x0 j = a i) (h1 : ∀ q : Fin 64, x1 (ix2 (0 : Fin 1) q) = b (ix2 (0 : Fin 1) q)) (hq : j 1 = i 1) :
    k1_pay1 x0 x1 j = biasRelu a b i := by
  obtain ⟨p, q, rfl⟩ : ∃ (p : Fin 10000) (q : Fin 64), j = ix2 p q := ⟨j 0, j 1, eq_ix2 j⟩
  rw [payload1_apply, h0, h1]
  show _ = max (a i + b (ix2 (0 : Fin 1) (i 1))) 0
  rw [← hq]

/-- What grid point t writes back is block t of max(a + b, 0). -/
theorem flushed1 (c : Dev nD) (t : Fin cfg1.N) :
    (dat1 (F := Ideal) V c).flushed 2 t
      = ((cfg1.win 2).blk t).view.read (Elt Ideal) (biasRelu (n := 100000) (e := 64) (V c main_v43) (V c main_v44)) := by
  show (cfg1.win 2).cut (grid1.coords t) ((dat1 (F := Ideal) V c).after 2 t) = _
  rw [after1_2]
  unfold out1_2
  rw [View.canon_unit_zero zero_offsets1]
  simp only [View.ld_unit_zero (S := S10000x64) zero_offsets1, View.ld_unit_zero (S := S1x64) zero_offsets1]
  obtain ⟨e00, e01, e10, e11, e20, e21⟩ := block_index1 t
  funext j
  show k1_pay1 (iblk1 V c 0 t) (iblk1 V c 1 t) j
      = biasRelu (n := 100000) (e := 64) (V c main_v43) (V c main_v44) (((cfg1.win 2).blk t).view.emb j)
  refine payload1_block _ _ _ _ j _ ?_ ?_ ?_
  · -- the block of a at point t sits where the output's block does
    show V c main_v43 (((cfg1.win 0).blk t).view.emb j) = V c main_v43 (((cfg1.win 2).blk t).view.emb j)
    refine congrArg _ (funext fun d => Fin.ext ?_)
    match d with
    | ⟨0, _⟩ =>
      show win1_0.index t (0 : Fin 2) * 10000 + 1 * (j 0).val = win1_2.index t (0 : Fin 2) * 10000 + 1 * (j 0).val
      rw [e00, e20]
    | ⟨1, _⟩ =>
      show win1_0.index t (1 : Fin 2) * 64 + 1 * (j 1).val = win1_2.index t (1 : Fin 2) * 64 + 1 * (j 1).val
      rw [e01, e21]
  · -- the block of b is the whole of b
    intro q
    show V c main_v44 (((cfg1.win 1).blk t).view.emb (ix2 (0 : Fin 1) q)) = V c main_v44 (ix2 (0 : Fin 1) q)
    refine congrArg _ (funext fun d => Fin.ext ?_)
    match d with
    | ⟨0, _⟩ =>
      show win1_1.index t (0 : Fin 2) * 1 + 1 * 0 = 0
      rw [e10]
    | ⟨1, _⟩ =>
      show win1_1.index t (1 : Fin 2) * 64 + 1 * q.val = q.val
      rw [e11]; omega
  · -- the output's block keeps the column
    refine Fin.ext ?_
    show (j 1).val = win1_2.index t (1 : Fin 2) * 64 + 1 * (j 1).val
    rw [e21]; omega

/-- An index of the array is in point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every index of the array is in the block of the point its row falls in: row r in that of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_2 _, ?_⟩
  rw [mem_block1]
  obtain ⟨-, -, -, -, e20, e21⟩ := block_index1 ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e20]; show (i 0).val / 10000 * 10000 ≤ (i 0).val ∧ (i 0).val < (i 0).val / 10000 * 10000 + 10000; omega
  | ⟨1, _⟩ =>
    show win1_2.index _ (1 : Fin 2) * 64 ≤ (i 1).val ∧ (i 1).val < win1_2.index _ (1 : Fin 2) * 64 + 64
    rw [e21]; omega

/-- After region 1 its output array is max(a + b, 0) row by row, a and b the arrays the region found. -/
theorem array1 (c : Dev nD) :
    (dat1 (F := Ideal) V c).arrAt 2 cfg1.N
      = biasRelu (n := 100000) (e := 64) (V c main_v43) (V c main_v44) := by
  exact (dat1 (F := Ideal) V c).arrAt_eq_of_cover 2 _ (fun t _ => flushed1 V c t) cover1

end Cert.KernelIdeal.RegionValue

end
-- ==== Proof.Region2.lean ====
/-
  Region 2 (the second layer's linear map): after the ten grid points the output array holds the matrix product of the 100000 × 64 feature array and the 64 × 32 weight array, whatever the region found in them: each point writes back the product of its block of 10000 rows, and the ten blocks tile the rows.
-/
import proofs.«112965_j69638599737458_1_alg».proof.Proof.Gen.KernelIdeal.Frame
import proofs.«112965_j69638599737458_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

/-- The matrix product's dimension numbers: the left factor's axis 1 is contracted against the right factor's axis 0.
    At output index j and contraction index k the left factor is read at (j 0, k) … -/
theorem lhs2_axis0 (j : S10000x32.Idx) (k : dot_S10000x64_S64x32_S10000x32_1_0_0_1_n_n.contr.Idx) :
    (dot_S10000x64_S64x32_S10000x32_1_0_0_1_n_n.lhsIdx j k 0).val = (j 0).val := rfl
theorem lhs2_axis1 (j : S10000x32.Idx) (k : dot_S10000x64_S64x32_S10000x32_1_0_0_1_n_n.contr.Idx) :
    (dot_S10000x64_S64x32_S10000x32_1_0_0_1_n_n.lhsIdx j k 1).val = (k ⟨0, by decide⟩).val := rfl
/-- … and the right factor at (k, j 1). -/
theorem rhs2_axis0 (j : S10000x32.Idx) (k : dot_S10000x64_S64x32_S10000x32_1_0_0_1_n_n.contr.Idx) :
    (dot_S10000x64_S64x32_S10000x32_1_0_0_1_n_n.rhsIdx j k 0).val = (k ⟨0, by decide⟩).val := rfl
theorem rhs2_axis1 (j : S10000x32.Idx) (k : dot_S10000x64_S64x32_S10000x32_1_0_0_1_n_n.contr.Idx) :
    (dot_S10000x64_S64x32_S10000x32_1_0_0_1_n_n.rhsIdx j k 1).val = (j 1).val := rfl

/-- THE BODY'S VALUE AT AN INDEX: entry (p, q) of what the body stores is the sum over k of x0(p, k) · x1(k, q).
    The change of float format is the identity on the extended reals, the accumulator is the zero splat, and the
    contraction index is its one coordinate. -/
theorem payload2_apply (x0 : Vec Ideal S10000x64 .f32) (x1 : Vec Ideal S64x32 .f32) (p : Fin 10000) (q : Fin 32) :
    k2_pay1 x0 x1 (ix2 p q) = ∑ k : Fin 64, x0 (ix2 p k) * x1 (ix2 k q) := by
  unfold k2_pay1
  refine (Ideal.matmul_constant_zero_apply dot_S10000x64_S64x32_S10000x32_1_0_0_1_n_n none _ _ (ix2 p q)).trans ?_
  rw [← Equiv.sum_comp (contrEquiv1 dot_S10000x64_S64x32_S10000x32_1_0_0_1_n_n 64 rfl rfl).symm]
  refine Finset.sum_congr rfl fun k _ => ?_
  -- the left factor is read at (p, k), the right factor at (k, q)
  have hl : dot_S10000x64_S64x32_S10000x32_1_0_0_1_n_n.lhsIdx (ix2 p q)
      ((contrEquiv1 dot_S10000x64_S64x32_S10000x32_1_0_0_1_n_n 64 rfl rfl).symm k) = ix2 p k :=
    Shape.idx_ext₂ (lhs2_axis0 _ _)
      ((lhs2_axis1 _ _).trans (contrEquiv1_symm_val dot_S10000x64_S64x32_S10000x32_1_0_0_1_n_n 64 rfl rfl k))
  have hr : dot_S10000x64_S64x32_S10000x32_1_0_0_1_n_n.rhsIdx (ix2 p q)
      ((contrEquiv1 dot_S10000x64_S64x32_S10000x32_1_0_0_1_n_n 64 rfl rfl).symm k) = ix2 k q :=
    Shape.idx_ext₂
      ((rhs2_axis0 _ _).trans (contrEquiv1_symm_val dot_S10000x64_S64x32_S10000x32_1_0_0_1_n_n 64 rfl rfl k))
      (rhs2_axis1 _ _)
  rw [truncf_apply, truncf_apply, shapeCast_self, hl, hr]

/-- The zero offsets of a whole-buffer access, as a constant function. -/
theorem zero_offsets2 : (![0, 0] : Fin 2 → Nat) = fun _ => 0 := funext fun a => by fin_cases a <;> rfl

/-- The printed index maps, decided over the ten grid points: the feature window and the output window are at
    row block t, column block 0; the weight window is the whole array at every point. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- ONE BLOCK OF ROWS. If on row j 0 the block x0 holds row i 0 of X, and on column j 1 the block x1 holds column
    i 1 of W, then the body's value at j is entry i of the product X · W. -/
theorem block_value2 (x0 : Vec Ideal S10000x64 .f32) (x1 : Vec Ideal S64x32 .f32)
    (X : Mat 100000 64) (W : Mat 64 32) (j : S10000x32.Idx) (i : S100000x32.Idx)
    (h0 : ∀ k : Fin 64, x0 (ix2 (j 0) k) = X (ix2 (i 0) k))
    (h1 : ∀ k : Fin 64, x1 (ix2 k (j 1)) = W (ix2 k (i 1))) :
    k2_pay1 x0 x1 j = dense X W i := by
  obtain ⟨p, q, rfl⟩ : ∃ (p : Fin 10000) (q : Fin 32), j = ix2 p q := ⟨j 0, j 1, eq_ix2 j⟩
  rw [payload2_apply]
  exact Finset.sum_congr rfl fun k _ => congrArg₂ (· * ·) (h0 k) (h1 k)

-- the TensorCore's buffer contents when the region is entered, at the extended reals
variable (V : (c : Dev nD) → (b : Ref sig .tc) → Buf (Elt Ideal) ((c : Thread nD τ).loc b))

/-- WHAT POINT t WRITES BACK is block t of the product of the two arrays as the region finds them: the feature
    block is rows t · 10000 … of the feature array, the weight block is the whole weight array, and the output
    block sits at rows t · 10000 … of the output array. -/
theorem flushed2_eq (c : Dev nD) (t : Fin cfg2.N) :
    (dat2 (F := Ideal) V c).flushed 2 t
      = ((cfg2.win 2).blk t).view.read (Elt Ideal)
          (dense (n := 100000) (d := 64) (e := 32) (V c main_v45) (V c main_arg4)) := by
  show (cfg2.win 2).cut (grid2.coords t) ((dat2 V c).after 2 t) = _
  rw [after2_2]
  unfold out2_2
  rw [View.canon_unit_zero zero_offsets2]
  simp only [View.ld_unit_zero (S := S10000x64) zero_offsets2, View.ld_unit_zero (S := S64x32) zero_offsets2]
  obtain ⟨e00, e01, e10, e11, e20, e21⟩ := block_index2 t
  funext j
  show k2_pay1 (iblk2 V c 0 t) (iblk2 V c 1 t) j
      = dense (n := 100000) (d := 64) (e := 32) (V c main_v45) (V c main_arg4) (((cfg2.win 2).blk t).view.emb j)
  refine block_value2 (iblk2 V c 0 t) (iblk2 V c 1 t) (V c main_v45) (V c main_arg4) j
    (((cfg2.win 2).blk t).view.emb j) (fun k => ?_) (fun k => ?_)
  · -- row j 0 of the feature block is row t · 10000 + j 0 of the feature array
    show V c main_v45 (((cfg2.win 0).blk t).view.emb (ix2 (j 0) k))
        = V c main_v45 (ix2 (((cfg2.win 2).blk t).view.emb j 0) k)
    refine congrArg (V c main_v45) ?_
    funext a; apply Fin.ext
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * k.val = k.val
      omega
  · -- column j 1 of the weight block is column j 1 of the weight array
    show V c main_arg4 (((cfg2.win 1).blk t).view.emb (ix2 k (j 1)))
        = V c main_arg4 (ix2 k (((cfg2.win 2).blk t).view.emb j 1))
    refine congrArg (V c main_arg4) ?_
    funext a; apply Fin.ext
    match a with
    | ⟨0, _⟩ =>
      show win2_1.index t (0 : Fin 2) * 64 + 1 * k.val = k.val
      omega
    | ⟨1, _⟩ =>
      show win2_1.index t (1 : Fin 2) * 32 + 1 * (j 1).val = win2_2.index t (1 : Fin 2) * 32 + 1 * (j 1).val
      omega

/-- An index of the output array is in point t's block iff each coordinate is in the block's range on its axis. -/
theorem mem_block2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v76).slice (win2_2.rect t)).set ↔ _
  rw [View.set_slice_whole, Rect.mem_set_unit]
  exact Iff.rfl

/-- THE TEN BLOCKS TILE THE ROWS: row r of the output array is in the block of point r / 10000, and every point
    writes its block back. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨-, -, -, -, e20, e21⟩ := block_index2 t
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 32 ≤ (i 1).val ∧ (i 1).val < win2_2.index t (1 : Fin 2) * 32 + 32
    omega

/-- After region 2 its output array is x · W, x and W the arrays the region found. -/
theorem array2 (c : Dev nD) :
    (dat2 (F := Ideal) V c).arrAt 2 cfg2.N
      = dense (n := 100000) (d := 64) (e := 32) (V c main_v45) (V c main_arg4) := by
  exact (dat2 (F := Ideal) V c).arrAt_eq_of_cover 2
    (dense (n := 100000) (d := 64) (e := 32) (V c main_v45) (V c main_arg4))
    (fun t _ => flushed2_eq V c t) cover2

end Cert.KernelIdeal.RegionValue

end
-- ==== Proof.Region3.lean ====
/-
  Region 3 (the second layer's bias and rectifier): after the ten grid points the output array holds max(a + b, 0), a the 100000 × 32 aggregated array and b the 1 × 32 bias row the region found: each point writes back its block of 10000 rows, and the ten blocks tile the rows.
-/
import proofs.«112965_j69638599737458_1_alg».proof.Proof.Gen.KernelIdeal.Frame
import proofs.«112965_j69638599737458_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

-- the TensorCore's buffer contents when the region is entered, at the extended reals
variable (V : (c : Dev nD) → (b : Ref sig .tc) → Buf (Elt Ideal) ((c : Thread nD τ).loc b))

/-- The store's and the loads' offsets are zero on both axes. -/
theorem zero_offsets3 : (![0, 0] : Fin 2 → Nat) = fun _ => 0 := funext fun a => by fin_cases a <;> rfl

/-- The printed index maps over the ten grid points: the row-blocked windows (input 0, output 2) are at block row t,
    block column 0; the bias window (input 1) stays at block (0, 0). -/
theorem block_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The 1 × 32 bias row broadcast along the 10000 rows reads, at (p, q), the row's entry q. -/
theorem bias_row3 (x : Vec Ideal S1x32 .f32) (p : Fin 10000) (q : Fin 32) :
    broadcastTo S10000x32 x broadcasts_S1x32_S10000x32 (ix2 p q) = x (ix2 (0 : Fin 1) q) := by
  refine broadcastTo_apply x broadcasts_S1x32_S10000x32 (ix2 p q) (ix2 (0 : Fin 1) q) fun a => ?_
  match a with
  | ⟨0, _⟩ => rfl
  | ⟨1, _⟩ => rfl

/-- The body's payload at (p, q): max(a(p, q) + b(0, q), 0) of the two loaded blocks. -/
theorem payload3_apply (x0 : Vec Ideal S10000x32 .f32) (x1 : Vec Ideal S1x32 .f32) (p : Fin 10000) (q : Fin 32) :
    k3_pay1 x0 x1 (ix2 p q) = max (x0 (ix2 p q) + x1 (ix2 (0 : Fin 1) q)) 0 := by
  unfold k3_pay1
  rw [maximumf_apply, addf_apply, broadcast_apply, shapeCast_self, shapeCast_self, bias_row3]
  show max _ (Ideal.ofBits .f32 0x00000000#32) = _
  rw [Ideal.ofBits_zero_f32]

/-- The payload of two blocks that are a block of rows of a and the whole of b is, entry by entry, max(a + b, 0) at the
    array index the entry sits at: the entry's row in a is the array's row i 0, its column the array's column i 1. -/
theorem payload3_block (x0 : Vec Ideal S10000x32 .f32) (x1 : Vec Ideal S1x32 .f32)
    (a : Mat 100000 32) (b : Mat 1 32) (j : S10000x32.Idx) (i : S100000x32.Idx)
    (h0 : x0 j = a i) (h1 : ∀ q : Fin 32, x1 (ix2 (0 : Fin 1) q) = b (ix2 (0 : Fin 1) q)) (hq : j 1 = i 1) :
    k3_pay1 x0 x1 j = biasRelu a b i := by
  obtain ⟨p, q, rfl⟩ : ∃ (p : Fin 10000) (q : Fin 32), j = ix2 p q := ⟨j 0, j 1, eq_ix2 j⟩
  rw [payload3_apply, h0, h1]
  show _ = max (a i + b (ix2 (0 : Fin 1) (i 1))) 0
  rw [← hq]

/-- What grid point t writes back is block t of max(a + b, 0). -/
theorem flushed3 (c : Dev nD) (t : Fin cfg3.N) :
    (dat3 (F := Ideal) V c).flushed 2 t
      = ((cfg3.win 2).blk t).view.read (Elt Ideal) (biasRelu (n := 100000) (e := 32) (V c main_v89) (V c main_v90)) := by
  show (cfg3.win 2).cut (grid3.coords t) ((dat3 (F := Ideal) V c).after 2 t) = _
  rw [after3_2]
  unfold out3_2
  rw [View.canon_unit_zero zero_offsets3]
  simp only [View.ld_unit_zero (S := S10000x32) zero_offsets3, View.ld_unit_zero (S := S1x32) zero_offsets3]
  obtain ⟨e00, e01, e10, e11, e20, e21⟩ := block_index3 t
  funext j
  show k3_pay1 (iblk3 V c 0 t) (iblk3 V c 1 t) j
      = biasRelu (n := 100000) (e := 32) (V c main_v89) (V c main_v90) (((cfg3.win 2).blk t).view.emb j)
  refine payload3_block _ _ _ _ j _ ?_ ?_ ?_
  · -- the block of a at point t sits where the output's block does
    show V c main_v89 (((cfg3.win 0).blk t).view.emb j) = V c main_v89 (((cfg3.win 2).blk t).view.emb j)
    refine congrArg _ (funext fun d => Fin.ext ?_)
    match d with
    | ⟨0, _⟩ =>
      show win3_0.index t (0 : Fin 2) * 10000 + 1 * (j 0).val = win3_2.index t (0 : Fin 2) * 10000 + 1 * (j 0).val
      rw [e00, e20]
    | ⟨1, _⟩ =>
      show win3_0.index t (1 : Fin 2) * 32 + 1 * (j 1).val = win3_2.index t (1 : Fin 2) * 32 + 1 * (j 1).val
      rw [e01, e21]
  · -- the block of b is the whole of b
    intro q
    show V c main_v90 (((cfg3.win 1).blk t).view.emb (ix2 (0 : Fin 1) q)) = V c main_v90 (ix2 (0 : Fin 1) q)
    refine congrArg _ (funext fun d => Fin.ext ?_)
    match d with
    | ⟨0, _⟩ =>
      show win3_1.index t (0 : Fin 2) * 1 + 1 * 0 = 0
      rw [e10]
    | ⟨1, _⟩ =>
      show win3_1.index t (1 : Fin 2) * 32 + 1 * q.val = q.val
      rw [e11]; omega
  · -- the output's block keeps the column
    refine Fin.ext ?_
    show (j 1).val = win3_2.index t (1 : Fin 2) * 32 + 1 * (j 1).val
    rw [e21]; omega

/-- An index of the array is in point t's block iff each coordinate is in the block's range on its axis. -/
theorem mem_block3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v91).slice (win3_2.rect t)).set ↔ _
  rw [View.set_slice_whole, Rect.mem_set_unit]
  exact Iff.rfl

/-- Every index of the array is in the block of the point its row falls in: row r in that of point r / 10000. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  refine ⟨⟨(i 0).val / 10000, by rw [hN]; omega⟩, flush3_2 _, ?_⟩
  rw [mem_block3]
  obtain ⟨-, -, -, -, e20, e21⟩ := block_index3 ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e20]; show (i 0).val / 10000 * 10000 ≤ (i 0).val ∧ (i 0).val < (i 0).val / 10000 * 10000 + 10000; omega
  | ⟨1, _⟩ =>
    show win3_2.index _ (1 : Fin 2) * 32 ≤ (i 1).val ∧ (i 1).val < win3_2.index _ (1 : Fin 2) * 32 + 32
    rw [e21]; omega

/-- After region 3 its output array is max(a + b, 0) row by row, a and b the arrays the region found. -/
theorem array3 (c : Dev nD) :
    (dat3 (F := Ideal) V c).arrAt 2 cfg3.N
      = biasRelu (n := 100000) (e := 32) (V c main_v89) (V c main_v90) := by
  exact (dat3 (F := Ideal) V c).arrAt_eq_of_cover 2 _ (fun t _ => flushed3 V c t) cover3

end Cert.KernelIdeal.RegionValue

end
-- ==== Proof.Region4.lean ====
/-
  Region 4 (the final linear layer with bias and rectifier): after the ten grid points the output array holds max(h · W + b, 0), h the 100000 × 32 feature array, W the 32 × 32 weights and b the 1 × 32 bias row the region found: each point writes back its block of 10000 rows, and the ten blocks tile the rows.
-/
import proofs.«112965_j69638599737458_1_alg».proof.Proof.Gen.KernelIdeal.Frame
import proofs.«112965_j69638599737458_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.GcnSpec
open Idealize.ShloMosaic Idealize.ShloMosaic.TcCoe Idealize.SL.Sem Idealize.ShloMosaic.ValueIdx
open Idealize.ShloMosaic.Pipeline (Dat Cfg Window)

-- the TensorCore's buffer contents when the region is entered, at the extended reals
variable (V : (c : Dev nD) → (b : Ref sig .tc) → Buf (Elt Ideal) ((c : Thread nD τ).loc b))

/-- The left operand's index on its row axis is the output's row. -/
theorem lhs_dot4_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide),
    dif_pos (show (0 : Fin S10000x32.rank) ∈ dot_S10000x32_S32x32_S10000x32_1_0_0_1_n_n.lhsNonContracting by decide)]
  rfl
/-- The left operand's index on its contracted axis is the contraction index's one coordinate. -/
theorem lhs_dot4_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
/-- The right operand's index on its contracted axis is the contraction index's one coordinate. -/
theorem rhs_dot4_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
/-- The right operand's index on its column axis is the output's column. -/
theorem rhs_dot4_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide),
    dif_pos (show (1 : Fin S32x32.rank) ∈ dot_S10000x32_S32x32_S10000x32_1_0_0_1_n_n.rhsNonContracting by decide)]
  rfl

/-- The product into a zero accumulator, read at (p, q): the sum over k of x(p, k) · w(k, q). -/
theorem matmul4_apply (x : FVec Ideal S10000x32 .bf16) (w : FVec Ideal S32x32 .bf16) (p : Fin 10000) (q : Fin 32) :
    matmul dot_S10000x32_S32x32_S10000x32_1_0_0_1_n_n none x w (constant (F := Ideal) S10000x32 .f32 0x00000000#32) (ix2 p q)
      = ∑ k : Fin 32, x (ix2 p k) * w (ix2 k q) := by
  simp only [matmul]
  rw [Ideal.matmul_constant_zero_apply,
    ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q)
      ((contrEquiv1 dot_S10000x32_S32x32_S10000x32_1_0_0_1_n_n 32 rfl rfl).symm k) = ix2 p k := funext fun a => Fin.ext (by
    match a with
    | ⟨0, _⟩ => exact lhs_dot4_0 _ _
    | ⟨1, _⟩ => exact (lhs_dot4_1 _ _).trans hk)
  have er : dot_S10000x32_S32x32_S10000x32_1_0_0_1_n_n.rhsIdx (ix2 p q)
      ((contrEquiv1 dot_S10000x32_S32x32_S10000x32_1_0_0_1_n_n 32 rfl rfl).symm k) = ix2 k q := funext fun a => Fin.ext (by
    match a with
    | ⟨0, _⟩ => exact (rhs_dot4_0 _ _).trans hk
    | ⟨1, _⟩ => exact rhs_dot4_1 _ _)
  rw [el, er]

/-- The bias row broadcast along the rows, read at (p, q), is the row's entry q. -/
theorem bias4_apply (b : FVec Ideal S1x32 .f32) (p : Fin 10000) (q : Fin 32) :
    broadcastTo S10000x32 b broadcasts_S1x32_S10000x32 (ix2 p q) = b (ix2 (0 : Fin 1) q) := by
  refine broadcastTo_apply b broadcasts_S1x32_S10000x32 (ix2 p q) (ix2 (0 : Fin 1) q) fun a => ?_
  match a with
  | ⟨0, _⟩ => rfl
  | ⟨1, _⟩ => rfl

/-- The body's result at (p, q): max(∑ k, x(p, k) · w(k, q) + b(0, q), 0). -/
theorem payload4_apply (x : Vec Ideal S10000x32 .f32) (w : Vec Ideal S32x32 .f32) (b : Vec Ideal S1x32 .f32)
    (p : Fin 10000) (q : Fin 32) :
    k4_pay1 x w b (ix2 p q) = max ((∑ k : Fin 32, x (ix2 p k) * w (ix2 k q)) + b (ix2 (0 : Fin 1) q)) 0 := by
  unfold k4_pay1
  rw [maximumf_apply, addf_apply, broadcast_apply, matmul4_apply, bias4_apply]
  simp only [truncf_apply, shapeCast_self]
  show max _ (Ideal.ofBits .f32 0x00000000#32) = _
  rw [Ideal.ofBits_zero_f32]

/-- The zero offsets of a whole-buffer access, however spelt. -/
theorem zero_offsets4 : (![0, 0] : Fin 2 → Nat) = fun _ => 0 := funext fun a => by fin_cases a <;> rfl

/-- The printed index maps, decided over the ten grid points: the two row-blocked windows (features in, result out) sit at
    block t of the rows and block 0 of the columns, the two whole-array windows (weights, bias row) at block (0, 0). -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The feature window's block at point t is rows 10000 t … 10000 t + 9999 of the feature array. -/
theorem features4_apply (c : Dev nD) (t : Fin cfg4.N) (y : S10000x32.Idx) (i : S100000x32.Idx)
    (h0 : (i 0).val = t.val * 10000 + (y 0).val) (h1 : (i 1).val = (y 1).val) :
    (iblk4 V c 0 t : Vec Ideal S10000x32 .f32) y = (V c main_v91 : S100000x32.Idx → EReal) i := by
  obtain ⟨e0, e1, -⟩ := index_facts4 t
  show V c main_v91 (((cfg4.win 0).blk t).view.emb y) = V c main_v91 i
  refine congrArg _ (funext fun a => Fin.ext ?_)
  match a with
  | ⟨0, _⟩ => show win4_0.index t (0 : Fin 2) * 10000 + 1 * (y 0).val = (i 0).val; omega
  | ⟨1, _⟩ => show win4_0.index t (1 : Fin 2) * 32 + 1 * (y 1).val = (i 1).val; omega

/-- The weight window's block at every point is the whole weight array. -/
theorem weights4_apply (c : Dev nD) (t : Fin cfg4.N) (y : S32x32.Idx) :
    (iblk4 V c 1 t : Vec Ideal S32x32 .f32) y = (V c main_arg6 : S32x32.Idx → EReal) y := by
  obtain ⟨-, -, e2, e3, -⟩ := index_facts4 t
  show V c main_arg6 (((cfg4.win 1).blk t).view.emb y) = V c main_arg6 y
  refine congrArg _ (funext fun a => Fin.ext ?_)
  match a with
  | ⟨0, _⟩ => show win4_1.index t (0 : Fin 2) * 32 + 1 * (y 0).val = (y 0).val; omega
  | ⟨1, _⟩ => show win4_1.index t (1 : Fin 2) * 32 + 1 * (y 1).val = (y 1).val; omega

/-- The bias window's block at every point is the whole bias row. -/
theorem bias_row4_apply (c : Dev nD) (t : Fin cfg4.N) (y : S1x32.Idx) :
    (iblk4 V c 2 t : Vec Ideal S1x32 .f32) y = (V c main_v92 : S1x32.Idx → EReal) y := by
  obtain ⟨-, -, -, -, e4, e5, -⟩ := index_facts4 t
  show V c main_v92 (((cfg4.win 2).blk t).view.emb y) = V c main_v92 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 32 + 1 * (y 1).val = (y 1).val; omega

/-- One point's result, over any blocks: if x is rows 10000 T … of h, and w and b are W and B, the body's result at
    (p, q) is max(h · W + B, 0) at (10000 T + p, q). -/
theorem point4_apply (x : Vec Ideal S10000x32 .f32) (w : Vec Ideal S32x32 .f32) (b : Vec Ideal S1x32 .f32)
    (h : Mat 100000 32) (W : Mat 32 32) (B : Mat 1 32) (T : Nat)
    (hx : ∀ (y : S10000x32.Idx) (i : S100000x32.Idx), (i 0).val = T * 10000 + (y 0).val → (i 1).val = (y 1).val → x y = h i)
    (hw : ∀ y, w y = W y) (hb : ∀ y, b y = B y)
    (j : S10000x32.Idx) (i : S100000x32.Idx) (hi0 : (i 0).val = T * 10000 + (j 0).val) (hi1 : (i 1).val = (j 1).val) :
    k4_pay1 x w b j = biasRelu (n := 100000) (e := 32) (dense (n := 100000) (d := 32) (e := 32) h W) B i := by
  obtain ⟨p, q, rfl⟩ : ∃ (p : Fin 10000) (q : Fin 32), j = ix2 p q := ⟨j 0, j 1, eq_ix2 j⟩
  obtain ⟨r, s, rfl⟩ : ∃ (r : Fin 100000) (s : Fin 32), i = ix2 r s := ⟨i 0, i 1, eq_ix2 i⟩
  obtain rfl : s = q := Fin.ext hi1
  have hsum : ∑ k : Fin 32, x (ix2 p k) * w (ix2 k s) = ∑ k : Fin 32, h (ix2 r k) * W (ix2 k s) :=
    Finset.sum_congr rfl fun k _ => by rw [hx (ix2 p k) (ix2 r k) hi0 rfl, hw]
  rw [payload4_apply, biasRelu_apply, dense_apply, hsum, hb]

/-- WHAT POINT t WRITES BACK is block t of max(h · W + b, 0), h, W and b the arrays the region found. -/
theorem flushed4_eq (c : Dev nD) (t : Fin cfg4.N) :
    (dat4 (F := Ideal) V c).flushed 3 t = ((cfg4.win 3).blk t).view.read (Elt Ideal)
      (biasRelu (n := 100000) (e := 32) (dense (n := 100000) (d := 32) (e := 32) (V c main_v91) (V c main_arg6)) (V c main_v92)) := by
  show (cfg4.win 3).cut (grid4.coords t) ((dat4 (F := Ideal) V c).after 3 t) = _
  rw [after4_3]
  unfold out4_3
  rw [View.canon_unit_zero zero_offsets4]
  simp only [View.ld_unit_zero (S := S10000x32) zero_offsets4, View.ld_unit_zero (S := S32x32) zero_offsets4,
    View.ld_unit_zero (S := S1x32) zero_offsets4]
  obtain ⟨-, -, -, -, -, -, e6, e7⟩ := index_facts4 t
  funext j
  show k4_pay1 (iblk4 V c 0 t) (iblk4 V c 1 t) (iblk4 V c 2 t) j
    = biasRelu (n := 100000) (e := 32) (dense (n := 100000) (d := 32) (e := 32) (V c main_v91) (V c main_arg6)) (V c main_v92)
        (((cfg4.win 3).blk t).view.emb j)
  refine point4_apply _ _ _ _ _ _ t.val (fun y i h0 h1 => features4_apply V c t y i h0 h1) (weights4_apply V c t)
    (bias_row4_apply V c t) j _ ?_ ?_
  · show win4_3.index t (0 : Fin 2) * 10000 + 1 * (j 0).val = t.val * 10000 + (j 0).val; omega
  · show win4_3.index t (1 : Fin 2) * 32 + 1 * (j 1).val = (j 1).val; omega

/-- An index of the result array is in point t's block iff each coordinate is in the block's range on its axis. -/
theorem mem_block4 (t : Fin cfg4.N) (i : S100000x32.Idx) :
    i ∈ ((cfg4.win 3).blk t).view.set ↔ ∀ a : Fin 2, win4_3.index t a * S10000x32.size a ≤ (i a).val ∧ (i a).val < win4_3.index t a * S10000x32.size a + S10000x32.size a := by
  show i ∈ ((View.whole main_v93).slice (win4_3.rect t)).set ↔ _
  rw [View.set_slice_whole, Rect.mem_set_unit]
  exact Iff.rfl

/-- The ten blocks of 10000 rows tile the 100000 rows: row r is in the block of point r / 10000. -/
theorem cover4 (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, -, -, e6, e7⟩ := index_facts4 t
  refine ⟨t, flush4_3 t, ?_⟩
  rw [mem_block4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 32 ≤ (i 1).val ∧ (i 1).val < win4_3.index t (1 : Fin 2) * 32 + 32; omega

/-- After region 4 its output array is max(h · W + b, 0), h, W and b the arrays the region found. -/
theorem array4 (c : Dev nD) :
    (dat4 (F := Ideal) V c).arrAt 3 cfg4.N
      = biasRelu (n := 100000) (e := 32) (dense (n := 100000) (d := 32) (e := 32) (V c main_v91) (V c main_arg6)) (V c main_v92) := by
  exact (dat4 (F := Ideal) V c).arrAt_eq_of_cover 3 _ (fun t _ => flushed4_eq V c t) cover4

end Cert.KernelIdeal.RegionValue

end
-- ==== Proof.KernelValue.lean ====
/-
  The kernel's result as the reference's. Along @main's fold each pipelined region's output array is the
  specification's function of what the region found (its blocks of rows tile the array), and what it found is, by the
  host stretches, the reference's stage of the argument arrays; so region by region the kernel's buffers hold the
  reference's stages: the first layer's features x · W₁, its output max(agg + b₁, 0), the second layer's features and
  output, and at the end max(h · W + b, 0), the reference's result.
-/
import proofs.«112965_j69638599737458_1_alg».proof.Proof.HostStretches
import proofs.«112965_j69638599737458_1_alg».proof.Proof.RefStages
import proofs.«112965_j69638599737458_1_alg».proof.Proof.Region0
import proofs.«112965_j69638599737458_1_alg».proof.Proof.Region1
import proofs.«112965_j69638599737458_1_alg».proof.Proof.Region2
import proofs.«112965_j69638599737458_1_alg».proof.Proof.Region3
import proofs.«112965_j69638599737458_1_alg».proof.Proof.Region4
import Idealize.ShloMosaic.Lib.Pipeline.Value

set_option maxRecDepth 16384

noncomputable section

namespace Cert.KernelIdeal.Result

open Cert.KernelIdeal Cert.KernelIdeal.Gen Cert.KernelIdeal.Stretch Cert.KernelIdeal.RegionValue Cert.GcnSpec
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- A vector reshaped to one row is the vector laid out as a one-row matrix. -/
theorem reshape_row {e : Nat} (v : Vc e) (h : (⟨1, ![e]⟩ : Shape).ShapeCasts ⟨2, ![1, e]⟩) :
    shapeCast (⟨2, ![1, e]⟩ : Shape) v h = row v :=
  funext fun j => (shapeCast_addUnit_apply ![e] v h j).trans
    (congrArg v (funext fun a => match a with | ⟨0, _⟩ => rfl))

/-- Region 0 leaves the first layer's features. -/
theorem features1 : W4 m ρ c (Proc.devRef .tc main_v30) = Cert.ReferenceIdeal.ReadP.val_main_v31 (F := Ideal) (m ((c : Thread nD τ).loc main_arg0)) (m ((c : Thread nD τ).loc main_arg2)) :=
  (W4_arr m ρ c 2).trans ((array0 (V3 m ρ) c).trans
    ((congrArg₂ (dense (n := 100000) (d := 4) (e := 64)) (arg0_3 m ρ c) (arg2_3 m ρ c)).trans
      (Cert.ReferenceIdeal.Stages.features1 _ _).symm))

/-- Region 1 leaves the first layer's output. -/
theorem layer1 : W6 m ρ c (Proc.devRef .tc main_v45) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) :=
  (W6_arr m ρ c 2).trans ((array1 (V5 m ρ) c).trans
    ((congrArg₂ (biasRelu (n := 100000) (e := 64)) (agg_5 m ρ c (features1 m ρ c))
        ((bias_5 m ρ c).trans (reshape_row (e := 64) _ _))).trans
      (Cert.ReferenceIdeal.Stages.layer1 _ _ _ _).symm))

/-- Region 2 leaves the second layer's features. -/
theorem features2 : W10 m ρ c (Proc.devRef .tc main_v76) = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W10_arr m ρ c 2).trans ((array2 (V9 m ρ) c).trans
    ((congrArg₂ (dense (n := 100000) (d := 64) (e := 32)) ((out1_9 m ρ c).trans (layer1 m ρ c)) (arg4_9 m ρ c)).trans
      (Cert.ReferenceIdeal.Stages.features2 _ _ _ _ _).symm))

/-- Region 3 leaves the second layer's output. -/
theorem layer2 : W12 m ρ c (Proc.devRef .tc main_v91) = Cert.ReferenceIdeal.ReadP.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W12_arr m ρ c 2).trans ((array3 (V11 m ρ) c).trans
    ((congrArg₂ (biasRelu (n := 100000) (e := 32)) (agg_11 m ρ c (features2 m ρ c))
        ((bias_11 m ρ c).trans (reshape_row (e := 32) _ _))).trans
      (Cert.ReferenceIdeal.Stages.layer2 _ _ _ _ _ _).symm))

/-- Region 4 leaves the reference's result. -/
theorem result : W14 m ρ c (Proc.devRef .tc main_v93) = Cert.ReferenceIdeal.ReadP.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W14_arr m ρ c 3).trans ((array4 (V13 m ρ) c).trans
    ((congrArg₂ (biasRelu (n := 100000) (e := 32))
        (congrArg₂ (dense (n := 100000) (d := 32) (e := 32)) ((out3_13 m ρ c).trans (layer2 m ρ c)) (arg6_13 m ρ c))
        ((bias_13 m ρ c).trans (reshape_row (e := 32) _ _))).trans
      (Cert.ReferenceIdeal.Stages.final _ _ _ _ _ _ _ _).symm))

end Cert.KernelIdeal.Result

end
-- ==== Proof.lean ====
/-
  The kernel is a two-layer graph convolution followed by a linear layer, written as five pipelined regions among
  host operations: per layer the node features are multiplied by the layer's weights (a region: ten blocks of
  10000 rows, one matrix product each), gathered along the edges (with a self loop at every node), scaled by
  1/sqrt(deg src) · 1/sqrt(deg dst) and scatter-added at the destinations (host operations, the same in both
  programs), and the bias is added and the rectifier applied (a region); the last region computes
  max(h · W + b, 0). The reference does the same with whole-array operations.

  On the extended reals the two are one function of the arguments. A region's output array is the specification's
  function of the arrays the region found, because its ten blocks of rows tile the array and each is that function
  restricted to the block; a matrix product into a zero accumulator is the plain sum over the contracted axis, which
  is what the host's product is; a change of float format is the identity; and every host stretch of the kernel is,
  operation by operation, a stretch of the reference. No law that needs finite values is used: the two sides are the
  same expression, not two arrangements of it.

  The three frames: the two kernels' by the frame certificates of their five regions, the reference's by its run.
  The idealization rewrote no operation, so there is nothing to preserve.
-/
import proofs.«112965_j69638599737458_1_alg».proof.Defs
import proofs.«112965_j69638599737458_1_alg».proof.Proof.Gen.Kernel
import proofs.«112965_j69638599737458_1_alg».proof.Proof.Gen.Kernel.Frame
import proofs.«112965_j69638599737458_1_alg».proof.Proof.Gen.KernelIdeal
import proofs.«112965_j69638599737458_1_alg».proof.Proof.Gen.KernelIdeal.Frame
import proofs.«112965_j69638599737458_1_alg».proof.Proof.Gen.ReferenceIdeal
import proofs.«112965_j69638599737458_1_alg».proof.Proof.Gen.Pre_finite_inputs
import proofs.«112965_j69638599737458_1_alg».proof.Proof.RunValue
import proofs.«112965_j69638599737458_1_alg».proof.Proof.KernelValue
import proofs.«112965_j69638599737458_1_alg».proof.Proof.RefRun
import proofs.«112965_j69638599737458_1_alg».proof.Proof.RefRead
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2)
    (Cert.ReferenceIdeal.ValueP.run (F := Ideal) m ρ)

/-- The kernel's result buffer ends at the last boundary's contents, which region by region is the reference's last
    stage of the arguments; the reference's result buffer ends at that stage of its own arguments, which agree. -/
theorem algebraic : Cert.algebraic_KernelIdeal_ReferenceIdeal := by
  intro m ρ m' ρ' _ hagree
  refine ⟨fun c => Cert.KernelIdeal.Gen.W14 m ρ c (Proc.devRef .tc Cert.KernelIdeal.main_v93),
    Cert.KernelIdeal.ValueRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  refine (Cert.ReferenceIdeal.ReadP.val_main_v102_eq m' c).trans ?_
  rw [h0, h1, h2, h3, h4, h5, h6, h7]
  exact (Cert.KernelIdeal.Result.result m ρ c).symm

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, trivial, Claims.algebraic⟩

end Cert.Proof

end
